-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S4096x512 : Shape := ⟨2, ![4096, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S16384x512 .f32) (main_arg1 : FVec F S4096x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S16384x512 : Shape := ⟨2, ![16384, 512]⟩
abbrev S4096x512 : Shape := ⟨2, ![4096, 512]⟩
abbrev S16384x4096 : Shape := ⟨2, ![16384, 4096]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S512x1024 : Shape := ⟨2, ![512, 1024]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S16384x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  bitsLt_bf16_f32 : FTy.bits .bf16 < FTy.bits .f32
  transposes_S1024x512_p1_0_S512x1024 : S1024x512.Transposes [1, 0] S512x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .f32 = 32 ∨ (Rect.block (s := S4096x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x4096.size a
  hwx0_2 : ∀ i : grid0.Coords, EltTy.bits .f32 = 32 ∨ (Rect.block (s := S16384x4096) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x512 : Shape := ⟨2, ![16384, 512]⟩
abbrev S4096x512 : Shape := ⟨2, ![4096, 512]⟩
abbrev S_ : Shape := ⟨0, ![]⟩
abbrev S16384 : Shape := ⟨1, ![16384]⟩
abbrev S16384x1 : Shape := ⟨2, ![16384, 1]⟩
abbrev S4096 : Shape := ⟨1, ![4096]⟩
abbrev S16384x4096 : Shape := ⟨2, ![16384, 4096]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S16384x4096, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S4096x512_S4096_d1 : S4096x512.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x512_S4096x512_S16384x4096_1_1_0_0_n_n_wf : DotDims.WF S16384x512 S4096x512 S16384x4096 [1] [1] [0] [0] [] []

variable [Facts₀]

def dot_S16384x512_S4096x512_S16384x4096_1_1_0_0_n_n : DotDims S16384x512 S4096x512 S16384x4096 where
  lhsContracting := [1]
  rhsContracting := [1]
  lhsNonContracting := [0]
  rhsNonContracting := [0]
  lhsBatch := []
  rhsBatch := []
  wf := dot_S16384x512_S4096x512_S16384x4096_1_1_0_0_n_n_wf

class Facts : Prop extends Facts₀ where

variable [Facts]
-- ==== Proof.LibKeepdims.lean ====
/-
  A row sum kept as a column, read at an index.

  A kernel that takes `sum(v, axis = -1, keepdims = True)` of an `[a, b]` block computes a lane sum into `[a]`,
  casts it to the column `[a, 1]`, and broadcasts the column over `[a, c]`; for the other operand of an outer
  sum it first turns the column into the row `[1, c]`. Each of these steps moves no value: read at an index of
  the result, it is the operand at the index with the unit coordinate dropped or put back. The lemmas below say
  so over literal coordinates, and the first says that, on the extended reals, the lane sum at row `r` is the
  plain sum over the row's entries.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib.Keepdims

open Idealize.ShloMosaic Idealize.ShloMosaic.ValueIdx

variable {α : Type}

/-- On the extended reals an f32 lane sum of an `[a, b]` array along its second axis, started from the zero
    word, is at row `r` the sum over `k < b` of the entries `(r, k)`: no initial value is left in it and no
    order of summation. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => ?_
  exact congrArg src (funext fun c => Fin.ext (by match c with | ⟨0, _⟩ => rfl | ⟨1, _⟩ => rfl))

/-- An `[a]` array cast to the column `[a, 1]` reads, at `(i, u)`, the operand at `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `[a, c]` reads, at `(i, j)`, the column's entry of row `i`. -/
theorem broadcastTo_a1_ac_apply {a c : ℕ} (v : (⟨2, ![a, 1]⟩ : Shape).Idx → α)
    (h : (⟨2, ![a, 1]⟩ : Shape).Broadcasts ⟨2, ![a, c]⟩) (i : Fin a) (j : Fin c) :
    broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A column `[a, 1]` turned into the row `[1, a]` reads, at `(u, i)`, the column's entry of row `i`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_ix2_apply x h u i

end Cert.Lib.Keepdims

end
-- ==== Proof.Spec.lean ====
/-
  The function both programs compute: a Gaussian radial-basis kernel between the rows of two arrays of
  512-feature vectors.

  For `x : [N, 512]` and `c : [M, 512]` the entry `(n, q)` of the result is
  `exp (-1 · max ((‖x_n‖² + ‖c_q‖²) − 2 · ⟨x_n, c_q⟩) 0)`, where `‖x_n‖²` is the sum over the 512 features of the
  squared entry and `⟨x_n, c_q⟩` the sum of the products. It is stated on the extended reals with the three
  constants as the f32 words both programs carry (`-1`, `2` and `0`), so that neither side ever evaluates
  them. The entry depends on row `n` of `x` and row `q` of `c` only: that is what lets a `1024 × 1024` tile of the
  result be computed from `1024` rows of each operand.
-/
import Idealize.ShloMosaic.PureOps.Ideal
import Idealize.ShloMosaic.Lib.ValueIdx

noncomputable section

open scoped BigOperators

namespace Cert.Rbf

open Idealize.ShloMosaic Idealize.ShloMosaic.ValueIdx

/-- The squared Euclidean norm of row `r` of an `[R, 512]` array. -/
def rowSq {R : ℕ} (a : (⟨2, ![R, 512]⟩ : Shape).Idx → EReal) (r : Fin R) : EReal :=
  ∑ k : Fin 512, a (ix2 r k) * a (ix2 r k)

/-- The inner product of row `r` of `a` with row `q` of `b`. -/
def rowDot {R Q : ℕ} (a : (⟨2, ![R, 512]⟩ : Shape).Idx → EReal) (b : (⟨2, ![Q, 512]⟩ : Shape).Idx → EReal)
    (r : Fin R) (q : Fin Q) : EReal :=
  ∑ k : Fin 512, a (ix2 r k) * b (ix2 q k)

/-- The kernel value from two squared norms `sx`, `sc` and an inner product `d`:
    `exp (-1 · max ((sx + sc) − 2 · d) 0)`. -/
def gauss (sx sc d : EReal) : EReal :=
  Ideal.exp (Ideal.ofBits .f32 0xBF800000#32
    * max ((sx + sc) - Ideal.ofBits .f32 0x40000000#32 * d) (Ideal.ofBits .f32 0x00000000#32))

/-- The kernel value between row `n` of `x` and row `q` of `c`. -/
def rbfAt {N M : ℕ} (x : (⟨2, ![N, 512]⟩ : Shape).Idx → EReal) (c : (⟨2, ![M, 512]⟩ : Shape).Idx → EReal)
    (n : Fin N) (q : Fin M) : EReal :=
  gauss (rowSq x n) (rowSq c q) (rowDot x c n q)

/-- The whole result array. -/
def rbf {N M : ℕ} (x : (⟨2, ![N, 512]⟩ : Shape).Idx → EReal) (c : (⟨2, ![M, 512]⟩ : Shape).Idx → EReal) :
    (⟨2, ![N, M]⟩ : Shape).Idx → EReal :=
  fun i => rbfAt x c (i 0) (i 1)

/-- The result at `(n, q)` is the kernel value between those two rows. -/
theorem rbf_ix2 {N M : ℕ} (x : (⟨2, ![N, 512]⟩ : Shape).Idx → EReal) (c : (⟨2, ![M, 512]⟩ : Shape).Idx → EReal)
    (n : Fin N) (q : Fin M) : rbf x c (ix2 n q) = rbfAt x c n q := rfl

/-- A row's squared norm depends on that row's entries only: two arrays that agree along a row of each have
    the same squared norm there. -/
theorem rowSq_congr {R R' : ℕ} (a : (⟨2, ![R, 512]⟩ : Shape).Idx → EReal) (a' : (⟨2, ![R', 512]⟩ : Shape).Idx → EReal)
    (r : Fin R) (r' : Fin R') (h : ∀ k : Fin 512, a (ix2 r k) = a' (ix2 r' k)) : rowSq a r = rowSq a' r' :=
  Finset.sum_congr rfl fun k _ => by rw [h k]

/-- Likewise the inner product of two rows. -/
theorem rowDot_congr {R R' Q Q' : ℕ} (a : (⟨2, ![R, 512]⟩ : Shape).Idx → EReal) (a' : (⟨2, ![R', 512]⟩ : Shape).Idx → EReal)
    (b : (⟨2, ![Q, 512]⟩ : Shape).Idx → EReal) (b' : (⟨2, ![Q', 512]⟩ : Shape).Idx → EReal)
    (r : Fin R) (r' : Fin R') (q : Fin Q) (q' : Fin Q')
    (ha : ∀ k : Fin 512, a (ix2 r k) = a' (ix2 r' k)) (hb : ∀ k : Fin 512, b (ix2 q k) = b' (ix2 q' k)) :
    rowDot a b r q = rowDot a' b' r' q' :=
  Finset.sum_congr rfl fun k _ => by rw [ha k, hb k]

/-- So the kernel value between two rows is the same in any two pairs of arrays that agree along those rows:
    a tile's entry computed from the tile's rows is the whole result's entry. -/
theorem rbfAt_congr {N N' M M' : ℕ} (x : (⟨2, ![N, 512]⟩ : Shape).Idx → EReal) (x' : (⟨2, ![N', 512]⟩ : Shape).Idx → EReal)
    (c : (⟨2, ![M, 512]⟩ : Shape).Idx → EReal) (c' : (⟨2, ![M', 512]⟩ : Shape).Idx → EReal)
    (n : Fin N) (n' : Fin N') (q : Fin M) (q' : Fin M')
    (hx : ∀ k : Fin 512, x (ix2 n k) = x' (ix2 n' k)) (hc : ∀ k : Fin 512, c (ix2 q k) = c' (ix2 q' k)) :
    rbfAt x c n q = rbfAt x' c' n' q' := by
  unfold rbfAt
  rw [rowSq_congr x x' n n' hx, rowSq_congr c c' q q' hc, rowDot_congr x x' c c' n n' q q' hx hc]

end Cert.Rbf

end
-- ==== Proof.Payload.lean ====
/-
  One tile of the kernel's result, entry by entry.

  The body receives `1024` rows of `x` and `1024` rows of `c` and stores a `1024 × 1024` tile. Read at `(p, q)`, on
  the extended reals: the lane sum of `x ∘ x`, kept as a column and broadcast along the tile's rows, is the squared
  norm of row `p`; the same sum for `c`, turned into a row and broadcast along the tile's columns, is the squared
  norm of row `q`; the matrix product of the rows of `x` with the transposed rows of `c`, into a zero accumulator,
  is the inner product of row `p` with row `q` (narrowing the operands to sixteen bits changes no extended real).
  The remaining operations are pointwise, so the entry is the radial-basis value between those two rows.
-/
import proofs.«121569_j65481071400015_1_alg».proof.Proof.Gen.KernelIdeal.Skeleton
import proofs.«121569_j65481071400015_1_alg».proof.Proof.LibKeepdims
import proofs.«121569_j65481071400015_1_alg».proof.Proof.Spec
import Idealize.ShloMosaic.PureOps.Ideal.Laws

noncomputable section

open scoped BigOperators

namespace Cert.Rbf.Tile

open Cert.KernelIdeal Cert.KernelIdeal.Gen
open Idealize.ShloMosaic Idealize.ShloMosaic.ValueIdx Cert.Rbf Cert.Lib.Keepdims

/-- The squared norms of the rows of `x0`, as the body lays them out over the tile: constant along each row. -/
theorem xsq_apply (x0 : FVec Ideal S1024x512 .f32) (p q : Fin 1024) :
    broadcastTo S1024x1024 (shapeCast S1024x1 (multiReduction .add [1] S1024 (mulf x0 x0) 0x00000000#32
        reduces_S1024x512_S1024 (.inl rfl) rfl) shapeCasts_S1024_S1024x1) broadcasts_S1024x1_S1024x1024 (ix2 p q)
      = rowSq x0 p :=
  (broadcastTo_a1_ac_apply _ broadcasts_S1024x1_S1024x1024 p q).trans
    ((shapeCast_a_a1_apply _ shapeCasts_S1024_S1024x1 p 0).trans
      (rowSum_apply (mulf x0 x0) reduces_S1024x512_S1024 (.inl rfl) rfl p))

/-- The squared norms of the rows of `x1`, as the body lays them out over the tile: constant along each column. -/
theorem csq_apply (x1 : FVec Ideal S1024x512 .f32) (p q : Fin 1024) :
    broadcastTo S1024x1024 (transpose S1x1024 [1, 0] (shapeCast S1024x1 (multiReduction .add [1] S1024 (mulf x1 x1)
        0x00000000#32 reduces_S1024x512_S1024 (.inl rfl) rfl) shapeCasts_S1024_S1024x1)
        transposes_S1024x1_p1_0_S1x1024) broadcasts_S1x1024_S1024x1024 (ix2 p q)
      = rowSq x1 q :=
  (broadcastTo_1b_ab_apply _ broadcasts_S1x1024_S1024x1024 p q).trans
    ((transpose_a1_1a_apply _ transposes_S1024x1_p1_0_S1x1024 0 q).trans
      ((shapeCast_a_a1_apply _ shapeCasts_S1024_S1024x1 q 0).trans
        (rowSum_apply (mulf x1 x1) reduces_S1024x512_S1024 (.inl rfl) rfl q)))

/-! The matrix product's operand indices: the left operand is read at (row of the output, contraction
    position), the right one at (contraction position, column of the output). -/

theorem lhs_axis0 (i : S1024x1024.Idx) (k : dot_S1024x512_S512x1024_S1024x1024_1_0_0_1_n_n.contr.Idx) :
    (dot_S1024x512_S512x1024_S1024x1024_1_0_0_1_n_n.lhsIdx i k 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem lhs_axis1 (i : S1024x1024.Idx) (k : dot_S1024x512_S512x1024_S1024x1024_1_0_0_1_n_n.contr.Idx) :
    (dot_S1024x512_S512x1024_S1024x1024_1_0_0_1_n_n.lhsIdx i k 1).val = (k ⟨0, by decide⟩).val :=
  dot_S1024x512_S512x1024_S1024x1024_1_0_0_1_n_n.lhsIdx_val_of_single rfl i k
theorem rhs_axis0 (i : S1024x1024.Idx) (k : dot_S1024x512_S512x1024_S1024x1024_1_0_0_1_n_n.contr.Idx) :
    (dot_S1024x512_S512x1024_S1024x1024_1_0_0_1_n_n.rhsIdx i k 0).val = (k ⟨0, by decide⟩).val :=
  dot_S1024x512_S512x1024_S1024x1024_1_0_0_1_n_n.rhsIdx_val_of_single rfl i k
theorem rhs_axis1 (i : S1024x1024.Idx) (k : dot_S1024x512_S512x1024_S1024x1024_1_0_0_1_n_n.contr.Idx) :
    (dot_S1024x512_S512x1024_S1024x1024_1_0_0_1_n_n.rhsIdx i k 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The body's matrix product at `(p, q)` is the inner product of row `p` of `x0` with row `q` of `x1`. -/
theorem cross_apply (x0 x1 : FVec Ideal S1024x512 .f32) (p q : Fin 1024) :
    matmul dot_S1024x512_S512x1024_S1024x1024_1_0_0_1_n_n none (truncf .bf16 x0 bitsLt_bf16_f32)
        (transpose S512x1024 [1, 0] (truncf .bf16 x1 bitsLt_bf16_f32) transposes_S1024x512_p1_0_S512x1024)
        (constant S1024x1024 .f32 0x00000000#32) (ix2 p q)
      = rowDot x0 x1 p q := by
  simp only [matmul]
  rw [Ideal.matmul_constant_zero_apply,
    ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k :=
    funext fun a => Fin.ext (by
      match a with
      | ⟨0, _⟩ => exact lhs_axis0 _ _
      | ⟨1, _⟩ => exact (lhs_axis1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q :=
    funext fun a => Fin.ext (by
      match a with
      | ⟨0, _⟩ => exact (rhs_axis0 _ _).trans hk
      | ⟨1, _⟩ => exact rhs_axis1 _ _)
  rw [el, er, transpose_ix2_apply]
  rfl

/-- The pointwise tail of the body: whatever three tiles hold the squared norms and the inner products, the
    stored value at an index is the radial-basis value of their entries there. -/
theorem tail_apply (sx sc d : FVec Ideal S1024x1024 .f32) (j : S1024x1024.Idx) :
    exp (mulf (broadcast S1024x1024 (Scalar.ofBits .f32 0xBF800000#32))
        (maximumf (subf (addf sx sc) (mulf (broadcast S1024x1024 (Scalar.ofBits .f32 0x40000000#32)) d))
          (broadcast S1024x1024 (Scalar.ofBits .f32 0x00000000#32)))) j
      = gauss (sx j) (sc j) (d j) := rfl

/-- THE TILE: the value the body stores at `(p, q)` is the radial-basis value between row `p` of its first
    block and row `q` of its second. -/
theorem tile_apply (x0 x1 : FVec Ideal S1024x512 .f32) (p q : Fin 1024) :
    k0_pay1 (F := Ideal) x0 x1 (ix2 p q) = rbfAt x0 x1 p q := by
  unfold k0_pay1
  refine (tail_apply _ _ _ (ix2 p q)).trans ?_
  rw [xsq_apply, csq_apply, cross_apply]
  rfl

end Cert.Rbf.Tile

end
-- ==== Proof.Blocks.lean ====
/-
  From tiles to the whole result.

  The grid has `16 × 4` points. Point `(a, b)` stages rows `1024·a …` of `x` and rows `1024·b …` of `c` (both blocks
  span all 512 features) and writes back the `1024 × 1024` tile of the result at block index `(a, b)`. So the
  tile's entry `(p, q)` sits at `(1024·a + p, 1024·b + q)` of the result, its first block's row `p` is row
  `1024·a + p` of `x` and its second block's row `q` is row `1024·b + q` of `c`: the tile entry, the radial-basis
  value between those two block rows, is the whole result's entry there. Every index of the `16384 × 4096` result
  lies in exactly the tile of its quotients by 1024, and every point writes its tile back, so after the run the
  result array is the radial-basis kernel of the two argument arrays.
-/
import proofs.«121569_j65481071400015_1_alg».proof.Proof.Gen.KernelIdeal.Value
import proofs.«121569_j65481071400015_1_alg».proof.Proof.Payload
import proofs.«121569_j65481071400015_1_alg».proof.Proof.Spec

noncomputable section

namespace Cert.Rbf.Blocks

open Cert.KernelIdeal Cert.KernelIdeal.Gen Idealize.ShloMosaic Idealize.ShloMosaic.TcCoe Idealize.SL.Sem
open Idealize.ShloMosaic.ValueIdx Cert.Rbf
open Idealize.ShloMosaic.Pipeline (Dat)

variable (m : (ℓ : Loc nD τ sig) → Buf (Elt Ideal) ℓ) (ρ : Dev nD → PrngReg)

/-- The two argument arrays as the region finds them, and the two blocks staged at point `t`, each at its
    literal shape. -/
abbrev xarr (c : Dev nD) : FVec Ideal S16384x512 .f32 := V m c main_arg0
abbrev carr (c : Dev nD) : FVec Ideal S4096x512 .f32 := V m c main_arg1
abbrev xblk (c : Dev nD) (t : Fin cfg0.N) : FVec Ideal S1024x512 .f32 := iblk m c 0 t
abbrev cblk (c : Dev nD) (t : Fin cfg0.N) : FVec Ideal S1024x512 .f32 := iblk m c 1 t

theorem zero_off : (![0, 0] : Fin 2 → Nat) = fun _ => 0 := funext fun a => by fin_cases a <;> rfl

/-- The index maps over the 64 points: the first operand's block follows the output's row block, the second
    operand's the output's column block, both at feature block 0; the output's block indices range over
    `16 × 4`. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15 ∧ win0_2.index t (1 : Fin 2) ≤ 3 :=
  (by decide +kernel : ∀ t : Fin grid0.N, _)

/-- Every block index of the `16 × 4` box is some point's. -/
theorem idx_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-- Row `p` of the first block at point `t` is row `1024·a + p` of `x`, `a` the output's row block there. -/
theorem xblk_apply (c : Dev nD) (t : Fin cfg0.N) (p : Fin 1024) (k : Fin 512) (n : Fin 16384)
    (hn : n.val = win0_2.index t (0 : Fin 2) * 1024 + p.val) :
    xblk m c t (ix2 p k) = xarr m c (ix2 n k) := by
  show V m c main_arg0 (((cfg0.win 0).blk t).view.emb (ix2 p k)) = V m c main_arg0 (ix2 n k)
  obtain ⟨e0, e1, -⟩ := idx_facts t
  refine congrArg _ (funext fun a => Fin.ext ?_)
  match a with
  | ⟨0, _⟩ => show win0_0.index t (0 : Fin 2) * 1024 + 1 * p.val = n.val; omega
  | ⟨1, _⟩ => show win0_0.index t (1 : Fin 2) * 512 + 1 * k.val = k.val; omega

/-- Row `q` of the second block at point `t` is row `1024·b + q` of `c`, `b` the output's column block there. -/
theorem cblk_apply (c : Dev nD) (t : Fin cfg0.N) (q : Fin 1024) (k : Fin 512) (n : Fin 4096)
    (hn : n.val = win0_2.index t (1 : Fin 2) * 1024 + q.val) :
    cblk m c t (ix2 q k) = carr m c (ix2 n k) := by
  show V m c main_arg1 (((cfg0.win 1).blk t).view.emb (ix2 q k)) = V m c main_arg1 (ix2 n k)
  obtain ⟨-, -, e2, e3, -⟩ := idx_facts t
  refine congrArg _ (funext fun a => Fin.ext ?_)
  match a with
  | ⟨0, _⟩ => show win0_1.index t (0 : Fin 2) * 1024 + 1 * q.val = n.val; omega
  | ⟨1, _⟩ => show win0_1.index t (1 : Fin 2) * 512 + 1 * k.val = k.val; omega

/-- WHAT POINT `t` WRITES BACK is tile `t` of the radial-basis kernel of the two argument arrays. -/
theorem flushed_eq (c : Dev nD) (t : Fin cfg0.N) :
    (dats m 0 c).flushed 2 t = ((cfg0.win 2).blk t).view.read (Elt Ideal) (rbf (xarr m c) (carr m c)) := by
  rw [Cert.KernelIdeal.Value.flushed2]
  unfold out0_2
  rw [View.canon_unit_zero zero_off]
  simp only [View.ld_unit_zero (S := S1024x512) zero_off]
  funext j
  obtain ⟨p, q, rfl⟩ : ∃ (p q : Fin 1024), j = ix2 p q := ⟨j 0, j 1, eq_ix2 j⟩
  obtain ⟨-, -, -, -, e4, e5⟩ := idx_facts t
  have hp : p.val < 1024 := p.isLt
  have hq : q.val < 1024 := q.isLt
  have hn : win0_2.index t (0 : Fin 2) * 1024 + p.val < 16384 := by omega
  have hk : win0_2.index t (1 : Fin 2) * 1024 + q.val < 4096 := by omega
  have hemb : ((cfg0.win 2).blk t).view.emb (ix2 p q)
      = (ix2 (⟨_, hn⟩ : Fin 16384) (⟨_, hk⟩ : Fin 4096) : S16384x4096.Idx) :=
    funext fun a => Fin.ext (by
      match a with
      | ⟨0, _⟩ => show win0_2.index t (0 : Fin 2) * 1024 + 1 * p.val = win0_2.index t (0 : Fin 2) * 1024 + p.val; omega
      | ⟨1, _⟩ => show win0_2.index t (1 : Fin 2) * 1024 + 1 * q.val = win0_2.index t (1 : Fin 2) * 1024 + q.val; omega)
  show k0_pay1 (F := Ideal) (xblk m c t) (cblk m c t) (ix2 p q)
    = rbf (xarr m c) (carr m c) (((cfg0.win 2).blk t).view.emb (ix2 p q))
  rw [hemb, rbf_ix2, Tile.tile_apply]
  exact rbfAt_congr _ _ _ _ p ⟨_, hn⟩ q ⟨_, hk⟩ (fun k => xblk_apply m c t p k _ rfl)
    (fun k => cblk_apply m c t q k _ rfl)

/-- An index of the result is in point `t`'s tile iff each coordinate is in the tile's range on its axis. -/
theorem mem_blk (t : Fin cfg0.N) (i : S16384x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result lies in the tile of the point whose block index is its quotients by 1024, and
    that point writes back. -/
theorem cover (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- THE RESULT ARRAY after the run is the radial-basis kernel of the two argument arrays. -/
theorem final (c : Dev nD) : (dats m 0 c).arrAt 2 cfg0.N = rbf (xarr m c) (carr m c) :=
  (dats m 0 c).arrAt_eq_of_cover 2 (rbf (xarr m c) (carr m c)) (fun t _ => flushed_eq m c t) cover

/-- The kernel's run, read: it terminates with its result at the radial-basis kernel of its arguments, and
    the arguments unchanged. -/
theorem run : θ_run defs (onTc (τ := τ) (main (F := Ideal))) ⟨m, fun _ => 0, ρ⟩ fun r => ∀ c : Dev nD,
      r.2.mem ((c : Thread nD τ).loc main_v0)
        = rbf (m ((c : Thread nD τ).loc main_arg0) : FVec Ideal S16384x512 .f32)
            (m ((c : Thread nD τ).loc main_arg1) : FVec Ideal S4096x512 .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Rbf.Blocks

end
-- ==== Proof.RefValue.lean ====
/-
  The reference computes the radial-basis kernel.

  Its last stage, read at an index `(n, q)`, is the exponential of `-1` times the clamped squared distance: the
  host's row sums of `x ∘ x` and `c ∘ c` are, on the extended reals, the zero initial value plus the sum over the
  512 features, broadcast along the other axis; the host's product of `x` with `c` contracted over the feature
  axis of both is the sum of the products. The zero initial values vanish, and what is left is the
  specification's entry `(n, q)` term by term.
-/
import proofs.«121569_j65481071400015_1_alg».proof.Proof.Gen.ReferenceIdeal.Read
import proofs.«121569_j65481071400015_1_alg».proof.Proof.Spec

noncomputable section

open scoped BigOperators

namespace Cert.Rbf.Reference

open Cert.ReferenceIdeal Cert.ReferenceIdeal.Gen Cert.ReferenceIdeal.Read
open Idealize.ShloMosaic Idealize.ShloMosaic.ValueIdx Cert.Rbf

/-- The reference's result array is the radial-basis kernel of its two argument arrays. -/
theorem result_eq (x : FVec Ideal S16384x512 .f32) (c : FVec Ideal S4096x512 .f32) :
    val_main_v17 (F := Ideal) x c = rbf x c := by
  funext i
  obtain ⟨n, q, rfl⟩ : ∃ (n : Fin 16384) (q : Fin 4096), i = ix2 n q := ⟨i 0, i 1, eq_ix2 i⟩
  rw [rbf_ix2]
  -- the row of `x` a squared norm sums over, the row of `c`, and the two rows the product contracts
  have ex : ∀ k : Fin 512, idx_main_v1 (idx_main_v2 (idx_main_v7 (ix2 n q))) k = ix2 n k := fun k =>
    funext fun a => Fin.ext (by match a with | ⟨0, _⟩ => rfl | ⟨1, _⟩ => rfl)
  have ec : ∀ k : Fin 512, idx_main_v4 (idx_main_v6 (idx_main_v8 (ix2 n q))) k = ix2 q k := fun k =>
    funext fun a => Fin.ext (by match a with | ⟨0, _⟩ => rfl | ⟨1, _⟩ => rfl)
  have el : ∀ k : Fin 512, lidx_main_v5 (ix2 n q) k = ix2 n k := fun k =>
    funext fun a => Fin.ext (by match a with | ⟨0, _⟩ => rfl | ⟨1, _⟩ => rfl)
  have er : ∀ k : Fin 512, ridx_main_v5 (ix2 n q) k = ix2 q k := fun k =>
    funext fun a => Fin.ext (by match a with | ⟨0, _⟩ => rfl | ⟨1, _⟩ => rfl)
  rw [val_main_v17_apply, val_main_v16_apply, val_main_v15_apply, val_main_cst_3_apply, val_main_v14_apply,
    val_main_v13_apply, val_main_cst_2_apply, val_main_v12_apply, val_main_v11_apply, val_main_v10_apply,
    val_main_cst_1_apply, val_main_v5_apply, val_main_v9_apply, val_main_v8_apply, val_main_v6_apply,
    val_main_v4_apply, val_main_cst_0_apply, val_main_v7_apply, val_main_v2_apply, val_main_v1_apply,
    val_main_cst_apply]
  simp only [val_main_v0_apply, val_main_v3_apply, ex, ec, el, er, Ideal.hostUnary_exp_def, Ideal.mulf_def,
    Ideal.maximumf_def, Ideal.subf_def, Ideal.addf_def, Ideal.ofBits_def, Ideal.ofBits_zero_f32, zero_add,
    rbfAt, gauss, rowSq, rowDot]

end Cert.Rbf.Reference

end
-- ==== Proof.lean ====
/-
  A Gaussian radial-basis kernel, tiled, against its plain formulation.

  For `x : f32[16384, 512]` and `c : f32[4096, 512]` both programs compute, at `(n, q)`,
  `exp (-1 · max ((‖x_n‖² + ‖c_q‖²) − 2 · ⟨x_n, c_q⟩) 0)`: the squared distance between row `n` of `x` and row `q` of
  `c` by its expansion, clamped at zero, negated and exponentiated. The kernel does it tile by tile on a
  `16 × 4` grid, each tile from 1024 rows of `x` and 1024 rows of `c`, with the inner products from a matrix
  product of the two blocks narrowed to sixteen bits; the reference does it with whole-array sums and one
  whole-array product. On the extended reals a narrowing is the identity, a lane sum and a host sum from zero
  are the same finite sum, and a matrix product into zero and the host's product are the same sum of products,
  so the two agree entry by entry with the additions, the subtraction and the product by `2` taken in the same
  order on both sides: no law of arithmetic beyond `0 + s = s` is used, and so nothing is asked of the inputs'
  finiteness.

  The three frames are the generated ones (the reference's is its generated run with the result dropped);
  the ideal pass rewrote nothing, so the idealization claim is trivial; the value claim sets the kernel's run,
  read as the specification (Proof/Blocks.lean over Proof/Payload.lean), beside the reference's run, read as the
  same specification (Proof/RefValue.lean).
-/
import proofs.«121569_j65481071400015_1_alg».proof.Defs
import proofs.«121569_j65481071400015_1_alg».proof.Proof.Gen.Kernel
import proofs.«121569_j65481071400015_1_alg».proof.Proof.Gen.Kernel.Skeleton
import proofs.«121569_j65481071400015_1_alg».proof.Proof.Gen.Kernel.Launch
import proofs.«121569_j65481071400015_1_alg».proof.Proof.Gen.Kernel.Points
import proofs.«121569_j65481071400015_1_alg».proof.Proof.Gen.Kernel.Frame
import proofs.«121569_j65481071400015_1_alg».proof.Proof.Gen.KernelIdeal
import proofs.«121569_j65481071400015_1_alg».proof.Proof.Gen.KernelIdeal.Skeleton
import proofs.«121569_j65481071400015_1_alg».proof.Proof.Gen.KernelIdeal.Launch
import proofs.«121569_j65481071400015_1_alg».proof.Proof.Gen.KernelIdeal.Points
import proofs.«121569_j65481071400015_1_alg».proof.Proof.Gen.KernelIdeal.Frame
import proofs.«121569_j65481071400015_1_alg».proof.Proof.Gen.ReferenceIdeal
import proofs.«121569_j65481071400015_1_alg».proof.Proof.Gen.Pre_finite_inputs
import proofs.«121569_j65481071400015_1_alg».proof.Proof.Gen.KernelIdeal.Value
import proofs.«121569_j65481071400015_1_alg».proof.Proof.Gen.ReferenceIdeal.Run
import proofs.«121569_j65481071400015_1_alg».proof.Proof.Gen.ReferenceIdeal.Read
import proofs.«121569_j65481071400015_1_alg».proof.Proof.Blocks
import proofs.«121569_j65481071400015_1_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel: nothing to restate. -/
theorem preserves : Cert.preserves_Kernel_KernelIdeal := trivial

/-- From memories that agree on `x` and `c`, both programs end with the radial-basis kernel of `x` and `c` in
    their result arrays: the kernel tile by tile, the reference stage by stage. -/
theorem algebraic : Cert.algebraic_KernelIdeal_ReferenceIdeal := by
  intro m ρ m' ρ' _ hagree
  refine ⟨_, Cert.Rbf.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Rbf.Reference.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
